-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S50000x128 .f32) (main_arg1 : IVec S2x800000 32) (main_arg2 : FVec F S128x1 .f32) (main_arg3 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S50000x128 : Shape := ⟨2, ![50000, 128]⟩
abbrev S2x800000 : Shape := ⟨2, ![2, 800000]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S1x1 : Shape := ⟨2, ![1, 1]⟩
abbrev S50000x1 : Shape := ⟨2, ![50000, 1]⟩
abbrev S2000x128 : Shape := ⟨2, ![2000, 128]⟩
abbrev S2000x1 : Shape := ⟨2, ![2000, 1]⟩
abbrev S2000 : Shape := ⟨1, ![2000]⟩

abbrev nBuf : Space → Nat
  | .hbm => 93
  | .vmem => 6
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x1, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S1x128, .f32⟩
  | .hbm, ⟨91, _⟩ => ⟨S1x1, .f32⟩
  | .hbm, ⟨92, _⟩ => ⟨S50000x1, .f32⟩
  | .local _ .vmem, ⟨0, _⟩ => ⟨S2000x128, .f32⟩
  | .local _ .vmem, ⟨1, _⟩ => ⟨S2000x128, .f32⟩
  | .local _ .vmem, ⟨2, _⟩ => ⟨S1x128, .f32⟩
  | .local _ .vmem, ⟨3, _⟩ => ⟨S1x1, .f32⟩
  | .local _ .vmem, ⟨4, _⟩ => ⟨S2000x1, .f32⟩
  | .local _ .vmem, ⟨5, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128x1_S1x128 : S128x1.ShapeCasts S1x128
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x1.size a ≤ S50000x1.size a
  hwx0_3 : ∀ i : grid0.Coords, EltTy.bits .f32 = 32 ∨ (Rect.block (s := S50000x1) S2000x1.size (cc0_transform_3 i) (hinb0_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf

abbrev win0_0 : Pipeline.Window sig grid0 :=
  Pipeline.Window.ofSpec (Memref.whole main_v66) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v68) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v69) S2000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x1 : Shape := ⟨2, ![128, 1]⟩
abbrev S1 : Shape := ⟨1, ![1]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x1 : Shape := ⟨2, ![50000, 1]⟩
abbrev S1x1 : Shape := ⟨2, ![1, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x1, .f32⟩
  | .hbm, ⟨3, _⟩ => ⟨S1, .f32⟩
  | .hbm, ⟨4, _⟩ => ⟨S50000, .i32⟩
  | .hbm, ⟨5, _⟩ => ⟨S1x800000, .i32⟩
  | .hbm, ⟨6, _⟩ => ⟨S800000, .i32⟩
  | .hbm, ⟨7, _⟩ => ⟨S850000, .i32⟩
  | .hbm, ⟨8, _⟩ => ⟨S1x800000, .i32⟩
  | .hbm, ⟨9, _⟩ => ⟨S800000, .i32⟩
  | .hbm, ⟨10, _⟩ => ⟨S850000, .i32⟩
  | .hbm, ⟨11, _⟩ => ⟨S_, .f32⟩
  | .hbm, ⟨12, _⟩ => ⟨S850000, .f32⟩
  | .hbm, ⟨13, _⟩ => ⟨S_, .f32⟩
  | .hbm, ⟨14, _⟩ => ⟨S50000, .f32⟩
  | .hbm, ⟨15, _⟩ => ⟨S850000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .i1⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S850000, .i32⟩
  | .hbm, ⟨27, _⟩ => ⟨S850000, .i1⟩
  | .hbm, ⟨28, _⟩ => ⟨S_, .i32⟩
  | .hbm, ⟨29, _⟩ => ⟨S850000, .i32⟩
  | .hbm, ⟨30, _⟩ => ⟨S850000, .i32⟩
  | .hbm, ⟨31, _⟩ => ⟨S850000, .i32⟩
  | .hbm, ⟨32, _⟩ => ⟨S850000x1, .i32⟩
  | .hbm, ⟨33, _⟩ => ⟨S850000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S850000, .f32⟩
  | .hbm, ⟨44, _⟩ => ⟨S850000x1, .f32⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x128, .f32⟩
  | .hbm, ⟨54, _⟩ => ⟨S850000x128, .f32⟩
  | .hbm, ⟨55, _⟩ => ⟨S850000x128, .f32⟩
  | .hbm, ⟨56, _⟩ => ⟨S_, .f32⟩
  | .hbm, ⟨57, _⟩ => ⟨S50000x128, .f32⟩
  | .hbm, ⟨58, _⟩ => ⟨S850000x1, .i32⟩
  | .hbm, ⟨59, _⟩ => ⟨S50000x128, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x128, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S850000x128, .f32⟩
  | .hbm, ⟨85, _⟩ => ⟨S850000x128, .f32⟩
  | .hbm, ⟨86, _⟩ => ⟨S_, .f32⟩
  | .hbm, ⟨87, _⟩ => ⟨S50000x128, .f32⟩
  | .hbm, ⟨88, _⟩ => ⟨S850000x1, .i32⟩
  | .hbm, ⟨89, _⟩ => ⟨S50000x128, .f32⟩
  | .hbm, ⟨90, _⟩ => ⟨S50000x1, .f32⟩
  | .hbm, ⟨91, _⟩ => ⟨S1x1, .f32⟩
  | .hbm, ⟨92, _⟩ => ⟨S50000x1, .f32⟩
  | .hbm, ⟨93, _⟩ => ⟨S50000x1, .f32⟩
  | .hbm, ⟨94, _⟩ => ⟨S50000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c_9 : Ref sig .tc := ⟨.hbm, 60, rfl⟩
abbrev main_v43 : Ref sig .tc := ⟨.hbm, 61, rfl⟩
abbrev main_v44 : Ref sig .tc := ⟨.hbm, 62, rfl⟩
abbrev main_c_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_11 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_14 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x1_S50000x1_1_0_0_1_n_n_wf : DotDims.WF S50000x128 S128x1 S50000x1 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KernelBlock.lean ====
/-
  What one grid step leaves in its block of the result, entry by entry. The step holds a block `x` of 2000 rows of
  the activations, the weight laid out as one row `w` of 128 entries, and the bias as a single cell `b`. Row `r` of
  the block ends at `(∑ k < 128, x[r, k] · w[0, k] + b[0, 0])²`:
  the lane reduction along the features is the plain sum of the products, because its accumulator starts at the additive
  neutral; the weight row, broadcast down the 2000 rows, is read at row 0; the bias cell, broadcast to the column,
  is read at its one cell.
-/
import proofs.«427275_j25598005084527_4_alg».proof.Proof.KernelValue
import Idealize.ShloMosaic.PureOps.Ideal.Laws
import Idealize.ShloMosaic.Lib.Pipeline.Value

noncomputable section

namespace Cert.KernelIdeal.Rows

open Cert.KernelIdeal Cert.KernelIdeal.Gen Idealize.ShloMosaic Idealize.ShloMosaic.TcCoe Idealize.SL.Sem

/-- Feature `k` of the block row that block index `y` lies in. -/
abbrev blkAt (y : S2000x1.Idx) (k : Fin 128) : S2000x128.Idx := fun a => match a with
  | ⟨0, _⟩ => ⟨(y 0).val, (y 0).isLt⟩
  | ⟨1, _⟩ => ⟨k.val, k.isLt⟩

/-- Entry `k` of the weight row. -/
abbrev rowAt (k : Fin 128) : S1x128.Idx := fun a => match a with
  | ⟨0, _⟩ => ⟨0, Nat.one_pos⟩
  | ⟨1, _⟩ => ⟨k.val, k.isLt⟩

/-- The bias block's only cell. -/
abbrev cell : S1x1.Idx := fun a => match a with
  | ⟨0, _⟩ => ⟨0, Nat.one_pos⟩
  | ⟨1, _⟩ => ⟨0, Nat.one_pos⟩

/-- The lane reduction of a block row against the broadcast weight row is the sum over the 128 features of the
    products: the reduction's accumulator is the additive neutral, the source index over row `r` with lane `k`
    inserted is `(r, k)`, and the weight row broadcast down the rows is read at `(0, k)`. -/
theorem rowSum (P0 : FVec Ideal S2000x128 .f32) (P1 : FVec Ideal S1x128 .f32) (y : S2000x1.Idx) :
    multiReduction (F := Ideal) .add [1] S2000 (mulf (shapeCast S2000x128 P0 shapeCasts_S2000x128_S2000x128) (broadcastTo S2000x128 (shapeCast S1x128 P1 shapeCasts_S1x128_S1x128) broadcasts_S1x128_S2000x128)) 0x00000000#32 reduces_S2000x128_S2000 (.inl rfl) rfl (ValueP.ix3_0 y)
      = ∑ k : Fin 128, P0 (blkAt y k) * P1 (rowAt k) := by
  refine (Ideal.multiReduction_add_single _ 0x00000000#32 reduces_S2000x128_S2000 (.inl rfl) rfl (ValueP.ix3_0 y)).trans ?_
  show ∑ k : Fin 128, _ = _
  refine Finset.sum_congr rfl fun k _ => ?_
  rw [shapeCast_self, shapeCast_self]
  have hl : reduces_S2000x128_S2000.lift (ValueP.ix3_0 y) k = blkAt y k := funext fun a => Fin.ext (by
    match a with
    | ⟨0, h0⟩ =>
      show Shape.Reduces.liftVal reduces_S2000x128_S2000 (ValueP.ix3_0 y) k.val ⟨0, h0⟩ = (y 0).val
      unfold Shape.Reduces.liftVal
      split_ifs with hc hlt
      · exact absurd hc Nat.zero_ne_one
      · rfl
      · exact absurd Nat.zero_lt_one hlt
    | ⟨1, h1⟩ =>
      show Shape.Reduces.liftVal reduces_S2000x128_S2000 (ValueP.ix3_0 y) k.val ⟨1, h1⟩ = k.val
      unfold Shape.Reduces.liftVal
      split_ifs with hc hlt
      · rfl
      · exact absurd rfl hc
      · exact absurd rfl hc)
  rw [hl]
  show P0 (blkAt y k) * broadcastTo S2000x128 P1 broadcasts_S1x128_S2000x128 (blkAt y k) = _
  rw [broadcastTo_apply P1 broadcasts_S1x128_S2000x128 (blkAt y k) (rowAt k) (fun a => match a with
    | ⟨0, _⟩ => by show 0 = if (1 : Nat) = 1 then 0 else _; rw [if_pos rfl]
    | ⟨1, _⟩ => by show k.val = if (128 : Nat) = 1 then 0 else k.val; rw [if_neg (by decide)])]

/-- The two places the block reads the bias are its one cell. -/
theorem bias_cell (y : S2000x1.Idx) : ValueP.ix3_1 y = cell := funext fun a => by
  match a with
  | ⟨0, _⟩ => rfl
  | ⟨1, _⟩ => rfl

/-- ENTRY `y` OF THE BLOCK a step leaves: the row's projection on the weight plus the bias, squared. -/
theorem block_entry (P0 : FVec Ideal S2000x128 .f32) (P1 : FVec Ideal S1x128 .f32) (P2 : FVec Ideal S1x1 .f32) (y : S2000x1.Idx) :
    ValueP.E3 (F := Ideal) P0 P1 P2 y
      = ((∑ k : Fin 128, P0 (blkAt y k) * P1 (rowAt k)) + P2 cell) * ((∑ k : Fin 128, P0 (blkAt y k) * P1 (rowAt k)) + P2 cell) := by
  show (multiReduction (F := Ideal) .add [1] S2000 (mulf (shapeCast S2000x128 P0 shapeCasts_S2000x128_S2000x128) (broadcastTo S2000x128 (shapeCast S1x128 P1 shapeCasts_S1x128_S1x128) broadcasts_S1x128_S2000x128)) 0x00000000#32 reduces_S2000x128_S2000 (.inl rfl) rfl (ValueP.ix3_0 y) + P2 (ValueP.ix3_1 y))
      * (multiReduction (F := Ideal) .add [1] S2000 (mulf (shapeCast S2000x128 P0 shapeCasts_S2000x128_S2000x128) (broadcastTo S2000x128 (shapeCast S1x128 P1 shapeCasts_S1x128_S1x128) broadcasts_S1x128_S2000x128)) 0x00000000#32 reduces_S2000x128_S2000 (.inl rfl) rfl (ValueP.ix3_0 y) + P2 (ValueP.ix3_1 y)) = _
  rw [rowSum, bias_cell]

theorem hz2 : (![0, 0] : Fin 2 → Nat) = fun _ => 0 := funext fun a => by fin_cases a <;> rfl

/-- The step's one store covers its whole block, so what the store writes at `y` is the block's entry `y`. -/
theorem payload_entry (P0 : FVec Ideal S2000x128 .f32) (P1 : FVec Ideal S1x128 .f32) (P2 : FVec Ideal S1x1 .f32) (y : S2000x1.Idx) :
    k0_pay1 (F := Ideal) P0 P1 P2 y
      = ((∑ k : Fin 128, P0 (blkAt y k) * P1 (rowAt k)) + P2 cell) * ((∑ k : Fin 128, P0 (blkAt y k) * P1 (rowAt k)) + P2 cell) := by
  have h := ValueP.canon3_eq (F := Ideal) P0 P1 P2 y
  rw [View.canon_unit_zero hz2] at h
  exact h.trans (block_entry P0 P1 P2 y)

end Cert.KernelIdeal.Rows

end
-- ==== Proof.LinearSquare.lean ====
/-
  The function both programs compute on the propagated activations: for node `n`,
  `out[n, 0] = (∑ k < 128, h[n, k] · w[k, 0] + b[0])²`, over the extended reals.
  It is stated over plain index functions of the literal shapes, with the three index
  constructors it reads its operands at, so that each side's value can be put in this
  form without opening the other program.
-/
import Idealize.ShloMosaic.PureOps.Ideal
import Idealize.ShloMosaic.Lib.ValueIdx

noncomputable section

namespace Cert.LinearSquare

open Idealize.ShloMosaic

/-- The propagated activations: one row of 128 features per node. -/
abbrev Acts : Shape := ⟨2, ![50000, 128]⟩
/-- The projection's weight, a column. -/
abbrev Wcol : Shape := ⟨2, ![128, 1]⟩
/-- The bias, one number. -/
abbrev Bias : Shape := ⟨1, ![1]⟩
/-- The result: one number per node, kept as a column. -/
abbrev Out : Shape := ⟨2, ![50000, 1]⟩

/-- Feature `k` of the node that result index `i` belongs to. -/
abbrev actAt (i : Out.Idx) (k : Fin 128) : Acts.Idx := fun a => match a with
  | ⟨0, _⟩ => ⟨(i 0).val, (i 0).isLt⟩
  | ⟨1, _⟩ => ⟨k.val, k.isLt⟩

/-- Entry `k` of the weight column. -/
abbrev wAt (k : Fin 128) : Wcol.Idx := fun a => match a with
  | ⟨0, _⟩ => ⟨k.val, k.isLt⟩
  | ⟨1, _⟩ => ⟨0, Nat.one_pos⟩

/-- The bias's only entry. -/
abbrev bAt : Bias.Idx := fun a => match a with
  | ⟨0, _⟩ => ⟨0, Nat.one_pos⟩

/-- The row's projection plus the bias. -/
def affine (h : Acts.Idx → EReal) (w : Wcol.Idx → EReal) (b : Bias.Idx → EReal) (i : Out.Idx) : EReal :=
  (∑ k : Fin 128, h (actAt i k) * w (wAt k)) + b bAt

/-- The projection plus the bias, squared: what every node ends with. -/
def linSq (h : Acts.Idx → EReal) (w : Wcol.Idx → EReal) (b : Bias.Idx → EReal) : Out.Idx → EReal :=
  fun i => affine h w b i * affine h w b i

theorem linSq_apply (h : Acts.Idx → EReal) (w : Wcol.Idx → EReal) (b : Bias.Idx → EReal) (i : Out.Idx) :
    linSq h w b i = ((∑ k : Fin 128, h (actAt i k) * w (wAt k)) + b bAt) * ((∑ k : Fin 128, h (actAt i k) * w (wAt k)) + b bAt) := rfl

end Cert.LinearSquare

end
-- ==== Proof.KernelArray.lean ====
/-
  From blocks to the whole result. Grid step `t` of the 25 handles rows `2000·t … 2000·t + 1999`: its block of the
  activations is those rows (all 128 features), its weight row and its bias cell are the same at every step, and the block
  it writes back is those rows of the result column. The 25 blocks tile the 50000 rows, so after the run the result array
  is ONE function of the three operand arrays as the kernel finds them: at row `n`,
  `(∑ k < 128, h[n, k] · w[0, k] + b[0, 0])²`.
-/
import proofs.«427275_j25598005084527_4_alg».proof.Proof.KernelBlock
import proofs.«427275_j25598005084527_4_alg».proof.Proof.LinearSquare
import Idealize.ShloMosaic.Lib.Pipeline.Value

noncomputable section

namespace Cert.KernelIdeal.Rows

open Cert.KernelIdeal Cert.KernelIdeal.Gen Idealize.ShloMosaic Idealize.ShloMosaic.TcCoe Idealize.SL.Sem
open Idealize.ShloMosaic.Pipeline (Dat)
open Cert.LinearSquare (actAt)

variable (m : (ℓ : Loc nD τ sig) → Buf (Elt Ideal) ℓ) (ρ : Dev nD → PrngReg)

/-- The kernel's result over its operands as staged: the activations, the weight as a row, the bias as a cell. -/
def rowsSq (h : S50000x128.Idx → EReal) (w : S1x128.Idx → EReal) (b : S1x1.Idx → EReal) : S50000x1.Idx → EReal :=
  fun i => ((∑ k : Fin 128, h (actAt i k) * w (rowAt k)) + b cell) * ((∑ k : Fin 128, h (actAt i k) * w (rowAt k)) + b cell)

/-- The printed index maps over the grid: the activations' block moves with the result's, down the rows; the weight
    row and the bias cell stay at block (0, 0); the result's block index is the step's number. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- The activations' block at step `t`, read at row `y`'s feature `k`, is the array at the row of the result that
    `y` is at step `t`, feature `k`: the two blocks move down the rows together. -/
theorem read_acts (X : S50000x128.Idx → EReal) (t : Fin cfg0.N) (y : S2000x1.Idx) (k : Fin 128) :
    ((cfg0.win 0).blk t).view.read (Elt Ideal) X (blkAt y k) = X (actAt (((cfg0.win 3).blk t).view.emb y) k) := by
  obtain ⟨e0, e1, e2, e3, e4, e5, e6, e7⟩ := idx_facts t
  have hy0 : (y 0).val < 2000 := (y 0).isLt
  show X (((cfg0.win 0).blk t).view.emb (blkAt y k)) = _
  refine congrArg X (funext fun a => Fin.ext ?_)
  match a with
  | ⟨0, _⟩ => show win0_0.index t (0 : Fin 2) * 2000 + 1 * (y 0).val = win0_3.index t (0 : Fin 2) * 2000 + 1 * (y 0).val; omega
  | ⟨1, _⟩ => show win0_0.index t (1 : Fin 2) * 128 + 1 * k.val = k.val; omega

/-- The weight row's block is the whole row at every step. -/
theorem read_weight (X : S1x128.Idx → EReal) (t : Fin cfg0.N) (k : Fin 128) :
    ((cfg0.win 1).blk t).view.read (Elt Ideal) X (rowAt k) = X (rowAt k) := by
  obtain ⟨e0, e1, e2, e3, e4, e5, e6, e7⟩ := idx_facts t
  show X (((cfg0.win 1).blk t).view.emb (rowAt k)) = _
  refine congrArg X (funext fun a => Fin.ext ?_)
  match a with
  | ⟨0, _⟩ => show win0_1.index t (0 : Fin 2) * 1 + 1 * 0 = 0; omega
  | ⟨1, _⟩ => show win0_1.index t (1 : Fin 2) * 128 + 1 * k.val = k.val; omega

/-- The bias cell's block is the cell at every step. -/
theorem read_bias (X : S1x1.Idx → EReal) (t : Fin cfg0.N) :
    ((cfg0.win 2).blk t).view.read (Elt Ideal) X cell = X cell := by
  obtain ⟨e0, e1, e2, e3, e4, e5, e6, e7⟩ := idx_facts t
  show X (((cfg0.win 2).blk t).view.emb cell) = _
  refine congrArg X (funext fun a => Fin.ext ?_)
  match a with
  | ⟨0, _⟩ => show win0_2.index t (0 : Fin 2) * 1 + 1 * 0 = 0; omega
  | ⟨1, _⟩ => show win0_2.index t (1 : Fin 2) * 1 + 1 * 0 = 0; omega

/-- Each input window's block is its array, as the region finds it, read through the step's rectangle. -/
theorem iblk0 (c : Dev nD) (t : Fin cfg0.N) : iblk m c 0 t = ((cfg0.win 0).blk t).view.read (Elt Ideal) (V m c main_v66) := by
  unfold iblk; rfl
theorem iblk1 (c : Dev nD) (t : Fin cfg0.N) : iblk m c 1 t = ((cfg0.win 1).blk t).view.read (Elt Ideal) (V m c main_v67) := by
  unfold iblk; rfl
theorem iblk2 (c : Dev nD) (t : Fin cfg0.N) : iblk m c 2 t = ((cfg0.win 2).blk t).view.read (Elt Ideal) (V m c main_v68) := by
  unfold iblk; rfl

/-- A block function that agrees, entry by entry, with an array read at the step's rows is what the step writes back
    of that array: the write-back takes the block whole, and reading an array through the step's rectangle is reading
    it at the rectangle's rows. -/
theorem writes_back_of_entries (t : Fin cfg0.N) (Fb : S2000x1.Idx → EReal) (G : S50000x1.Idx → EReal)
    (h : ∀ y : S2000x1.Idx, Fb y = G (((cfg0.win 3).blk t).view.emb y)) :
    (cfg0.win 3).cut (grid0.coords t) Fb = ((cfg0.win 3).blk t).view.read (Elt Ideal) G := by
  funext y
  exact h y

/-- ENTRY `y` OF A STEP'S BLOCK over any three operand arrays, for blocks that read the arrays where the step's
    rectangles say: the entry of `rowsSq` at row `i`, the row of the result that `y` is at that step. -/
theorem entry_of_reads (A0 : S50000x128.Idx → EReal) (A1 : S1x128.Idx → EReal) (A2 : S1x1.Idx → EReal) (i : S50000x1.Idx) (y : S2000x1.Idx)
    (P0 : FVec Ideal S2000x128 .f32) (P1 : FVec Ideal S1x128 .f32) (P2 : FVec Ideal S1x1 .f32)
    (h0 : ∀ k : Fin 128, P0 (blkAt y k) = A0 (actAt i k)) (h1 : ∀ k : Fin 128, P1 (rowAt k) = A1 (rowAt k)) (h2 : P2 cell = A2 cell) :
    k0_pay1 (F := Ideal) P0 P1 P2 y = rowsSq A0 A1 A2 i := by
  refine (payload_entry P0 P1 P2 y).trans ?_
  unfold rowsSq
  simp only [h0, h1, h2]

/-- ENTRY `y` OF STEP `t`'s BLOCK, over any three operand arrays. -/
theorem step_entry (A0 : S50000x128.Idx → EReal) (A1 : S1x128.Idx → EReal) (A2 : S1x1.Idx → EReal) (t : Fin cfg0.N) (y : S2000x1.Idx) :
    k0_pay1 (F := Ideal) (((cfg0.win 0).blk t).view.read (Elt Ideal) A0) (((cfg0.win 1).blk t).view.read (Elt Ideal) A1)
        (((cfg0.win 2).blk t).view.read (Elt Ideal) A2) y
      = rowsSq A0 A1 A2 (((cfg0.win 3).blk t).view.emb y) :=
  entry_of_reads A0 A1 A2 _ y _ _ _ (fun k => read_acts A0 t y k) (fun k => read_weight A1 t k) (read_bias A2 t)

/-- WHAT STEP `t` WRITES BACK is block `t` of `rowsSq` of the operand arrays as the region finds them. -/
theorem flushed_eq (c : Dev nD) (t : Fin cfg0.N) :
    (dats m 0 c).flushed 3 t = ((cfg0.win 3).blk t).view.read (Elt Ideal) (rowsSq (V m c main_v66) (V m c main_v67) (V m c main_v68)) := by
  rw [ValueP.flushed3]
  unfold out0_3
  rw [View.canon_unit_zero hz2]
  simp only [View.ld_unit_zero (S := S2000x128) hz2, View.ld_unit_zero (S := S1x128) hz2, View.ld_unit_zero (S := S1x1) hz2]
  rw [iblk0 m c t, iblk1 m c t, iblk2 m c t]
  generalize V m c main_v66 = A0
  generalize V m c main_v67 = A1
  generalize V m c main_v68 = A2
  exact writes_back_of_entries t _ _ (fun y => step_entry A0 A1 A2 t y)

/-- An index of the result is in step `t`'s block iff each coordinate is in the block's range on its axis. -/
theorem mem_blk (t : Fin cfg0.N) (i : S50000x1.Idx) :
    i ∈ ((cfg0.win 3).blk t).view.set ↔ ∀ a : Fin 2, win0_3.index t a * S2000x1.size a ≤ (i a).val ∧ (i a).val < win0_3.index t a * S2000x1.size a + S2000x1.size a := by
  show i ∈ ((View.whole main_v69).slice (win0_3.rect t)).set ↔ _
  rw [View.set_slice_whole, Rect.mem_set_unit]
  exact Iff.rfl

/-- EVERY ROW IS SOME STEP'S: row `n` lies in the block of step `n / 2000`. -/
theorem cover (i : S50000x1.Idx) : ∃ t : Fin cfg0.N, (cfg0.win 3).flush t = true ∧ i ∈ ((cfg0.win 3).blk t).view.set := by
  have hi0 : (i 0).val < 50000 := (i 0).isLt
  have hi1 : (i 1).val < 1 := (i 1).isLt
  have ht : (i 0).val / 2000 < 25 := by omega
  obtain ⟨e0, e1, e2, e3, e4, e5, e6, e7⟩ := idx_facts ⟨(i 0).val / 2000, ht⟩
  refine ⟨⟨(i 0).val / 2000, ht⟩, flush0_3 _, ?_⟩
  rw [mem_blk]
  intro a
  have e6' : win0_3.index ⟨(i 0).val / 2000, ht⟩ (0 : Fin 2) = (i 0).val / 2000 := e6
  match a with
  | ⟨0, _⟩ => show win0_3.index ⟨(i 0).val / 2000, ht⟩ (0 : Fin 2) * 2000 ≤ (i 0).val ∧ (i 0).val < win0_3.index ⟨(i 0).val / 2000, ht⟩ (0 : Fin 2) * 2000 + 2000; omega
  | ⟨1, _⟩ => show win0_3.index ⟨(i 0).val / 2000, ht⟩ (1 : Fin 2) * 1 ≤ (i 1).val ∧ (i 1).val < win0_3.index ⟨(i 0).val / 2000, ht⟩ (1 : Fin 2) * 1 + 1; omega

/-- THE RESULT ARRAY after the run: `rowsSq` of the operand arrays as the region finds them. -/
theorem final (c : Dev nD) : (dats m 0 c).arrAt 3 cfg0.N = rowsSq (V m c main_v66) (V m c main_v67) (V m c main_v68) :=
  (dats m 0 c).arrAt_eq_of_cover 3 _ (fun t _ => flushed_eq m c t) cover

/-- The kernel's run with its result named: the result array at `rowsSq` of the operands, the arguments unchanged. -/
theorem run : θ_run defs (onTc (τ := τ) (main (F := Ideal))) ⟨m, fun _ => 0, ρ⟩ fun r => ∀ c : Dev nD,
      r.2.mem ((c : Thread nD τ).loc main_v69) = rowsSq (V m c main_v66) (V m c main_v67) (V m c main_v68)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.KernelIdeal.Rows

end
-- ==== Proof.KernelOperands.lean ====
/-
  Two of the kernel's three operands as its host code prepares them: the weight column reshaped to a row and the bias
  reshaped to a 1×1 block. A reshape keeps the row-major order, so entry `(0, k)` of the row is entry `(k, 0)` of
  the column, and the block's one cell is the bias's one entry.
-/
import proofs.«427275_j25598005084527_4_alg».proof.Proof.Gen.KernelIdeal.Frame
import proofs.«427275_j25598005084527_4_alg».proof.Proof.KernelBlock
import proofs.«427275_j25598005084527_4_alg».proof.Proof.LinearSquare
import Idealize.ShloMosaic.Lib.StableHlo.Run
import Idealize.ShloMosaic.Lib.Pipeline.Value

noncomputable section

namespace Cert.KernelIdeal.Rows

open Cert.KernelIdeal Cert.KernelIdeal.Gen Idealize.ShloMosaic Idealize.ShloMosaic.TcCoe Idealize.SL.Sem Idealize.ShloMosaic.StableHlo
open Cert.LinearSquare (wAt bAt)

variable {F : FTy → Type} [FloatOps F]
variable (m : (ℓ : Loc nD τ sig) → Buf (Elt F) ℓ)

/-- The weight operand is the weight argument reshaped from a column to a row. -/
theorem weight_operand (c : Dev nD) :
    (V m c main_v67 : S1x128.Idx → Elt F .f32) = shapeCast S1x128 (m ((c : Thread nD τ).loc main_arg2)) shapeCasts_S128x1_S1x128 := by
  dsimp only [Gen.V]
  simp only [Gen.hostOps0, Gen.hostOps0_1, Gen.hostOps0_2, List.flatten_cons, List.flatten_nil, List.append_nil, List.cons_append, List.nil_append]
  after_results_simp
  rfl

/-- The bias operand is the bias argument reshaped to a 1×1 block. -/
theorem bias_operand (c : Dev nD) :
    (V m c main_v68 : S1x1.Idx → Elt F .f32) = shapeCast S1x1 (m ((c : Thread nD τ).loc main_arg3)) shapeCasts_S1_S1x1 := by
  dsimp only [Gen.V]
  simp only [Gen.hostOps0, Gen.hostOps0_1, Gen.hostOps0_2, List.flatten_cons, List.flatten_nil, List.append_nil, List.cons_append, List.nil_append]
  after_results_simp
  rfl

/-- Entry `k` of the weight row is entry `(k, 0)` of the weight column. -/
theorem weight_row (c : Dev nD) (k : Fin 128) : V m c main_v67 (rowAt k) = m ((c : Thread nD τ).loc main_arg2) (wAt k) := by
  rw [weight_operand]
  exact shapeCast_apply _ _ (rowAt k) (wAt k) (by
    rw [Shape.rowMajor_val_two, Shape.rowMajor_val_two]; show k.val * 1 + 0 = 0 * 128 + k.val; omega)

/-- The bias block's cell is the bias's entry. -/
theorem bias_entry (c : Dev nD) : V m c main_v68 cell = m ((c : Thread nD τ).loc main_arg3) bAt := by
  rw [bias_operand]
  exact shapeCast_apply _ _ cell bAt (by
    rw [Shape.rowMajor_val_one, Shape.rowMajor_val_two]; show (0 : Nat) = 0 * 1 + 0; rfl)

end Cert.KernelIdeal.Rows

end
-- ==== Proof.SharedActivations.lean ====
/-
  The propagated activations are the same function of the node features and the edge list in both programs. Each
  program computes them on the host by the same 86 operations in the same order — self-loops appended to the edge
  list, degrees by a scatter-add of ones, `d^(-1/2)` where the degree is positive and `0` elsewhere, the edge weights
  `d^(-1/2)[src] · d^(-1/2)[dst]`, then three rounds of gather by source, scaling, and scatter-add by target — over
  records that are spelt once per program and agree field by field. The kernel's program states the value as the fold of
  its host operations over the launch memory; the reference's as a chain of named stages. Read back, the two are one term.
  Stated for any float family: nothing here looks inside a float operation.
-/
import proofs.«427275_j25598005084527_4_alg».proof.Proof.Gen.KernelIdeal.Frame
import proofs.«427275_j25598005084527_4_alg».proof.Proof.ReferenceRead
import Idealize.ShloMosaic.Lib.StableHlo.Run

noncomputable section

namespace Cert.KernelIdeal.Rows

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

set_option maxRecDepth 8192 in
set_option maxHeartbeats 4000000 in
/-- The activations the kernel's region finds are the reference's activations of the same arguments. -/
theorem acts_eq (c : Dev nD) :
    (V m c main_v66 : S50000x128.Idx → Elt F .f32)
      = Cert.ReferenceIdeal.ReadP.val_main_v66 (F := F) (m ((c : Thread nD τ).loc main_arg0)) (m ((c : Thread nD τ).loc main_arg1)) := by
  dsimp only [Gen.V]
  simp only [Gen.hostOps0, Gen.hostOps0_1, Gen.hostOps0_2, List.flatten_cons, List.flatten_nil, List.append_nil, List.cons_append, List.nil_append]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

end Cert.KernelIdeal.Rows

end
-- ==== Proof.KernelResult.lean ====
/-
  The kernel's result as the common function of the propagated activations: its three operands put back in terms of
  the program's arguments. The weight row's entry `(0, k)` is the weight column's `(k, 0)`, the bias cell is the
  bias's entry, and the activations the region finds are the reference's activations of the same node features and
  edge list; so at every node the kernel ends at `(∑ k < 128, h[n, k] · w[k, 0] + b[0])²`.
-/
import proofs.«427275_j25598005084527_4_alg».proof.Proof.KernelArray
import proofs.«427275_j25598005084527_4_alg».proof.Proof.KernelOperands
import proofs.«427275_j25598005084527_4_alg».proof.Proof.SharedActivations
import proofs.«427275_j25598005084527_4_alg».proof.Proof.LinearSquare

noncomputable section

namespace Cert.KernelIdeal.Rows

open Cert.KernelIdeal Cert.KernelIdeal.Gen Idealize.ShloMosaic Idealize.ShloMosaic.TcCoe Idealize.SL.Sem
open Cert.LinearSquare (linSq)

variable (m : (ℓ : Loc nD τ sig) → Buf (Elt Ideal) ℓ) (ρ : Dev nD → PrngReg)

/-- The activations both programs propagate, as a function of the kernel program's arguments. -/
abbrev acts (c : Dev nD) : Cert.LinearSquare.Acts.Idx → EReal :=
  Cert.ReferenceIdeal.ReadP.val_main_v66 (F := Ideal) (m ((c : Thread nD τ).loc main_arg0)) (m ((c : Thread nD τ).loc main_arg1))

/-- Over any arrays: when the weight row's entry `(0, k)` is the weight column's `(k, 0)` and the bias cell is the
    bias's entry, the kernel's whole-array function of its staged operands is the common function. -/
theorem rowsSq_of_operands (A0 : S50000x128.Idx → EReal) (A1 : S1x128.Idx → EReal) (A2 : S1x1.Idx → EReal)
    (w : Cert.LinearSquare.Wcol.Idx → EReal) (b : Cert.LinearSquare.Bias.Idx → EReal)
    (h1 : ∀ k : Fin 128, A1 (rowAt k) = w (Cert.LinearSquare.wAt k)) (h2 : A2 cell = b Cert.LinearSquare.bAt) :
    rowsSq A0 A1 A2 = linSq A0 w b := by
  funext i
  unfold rowsSq
  rw [Cert.LinearSquare.linSq_apply]
  simp only [h1, h2]

/-- The kernel's whole-array function of its staged operands is the common function of the arguments. -/
theorem rowsSq_eq (c : Dev nD) :
    rowsSq (V m c main_v66) (V m c main_v67) (V m c main_v68)
      = linSq (acts m c) (m ((c : Thread nD τ).loc main_arg2)) (m ((c : Thread nD τ).loc main_arg3)) :=
  (rowsSq_of_operands _ _ _ _ _ (fun k => weight_row m c k) (bias_entry m c)).trans
    (congrArg (fun h => linSq h (m ((c : Thread nD τ).loc main_arg2)) (m ((c : Thread nD τ).loc main_arg3))) (acts_eq m c))

/-- The kernel's run: its result at the common function of the arguments, the arguments unchanged. -/
theorem run_linSq : θ_run defs (onTc (τ := τ) (main (F := Ideal))) ⟨m, fun _ => 0, ρ⟩ fun r => ∀ c : Dev nD,
      r.2.mem ((c : Thread nD τ).loc main_v69) = linSq (acts m c) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (rowsSq_eq m c), (h c).2⟩) (run m ρ)

end Cert.KernelIdeal.Rows

end
-- ==== Proof.ReferenceValue.lean ====
/-
  The reference's result as the common function of the propagated activations. Its last five operations are a
  `dot_general` of the activations with the weight column (one contracted axis: at index `(n, 0)` the sum over
  `k` of `h[n, k] · w[k, 0]`), the bias broadcast to the column, their sum, and its square; everything before
  them computes the activations and stays folded here as one function of the node features and the edge list.
-/
import proofs.«427275_j25598005084527_4_alg».proof.Proof.ReferenceRead
import proofs.«427275_j25598005084527_4_alg».proof.Proof.LinearSquare

noncomputable section

namespace Cert.ReferenceIdeal.Square

open Cert.ReferenceIdeal Cert.ReferenceIdeal.ReadP Idealize.ShloMosaic Idealize.ShloMosaic.TcCoe Idealize.SL.Sem
open Cert.LinearSquare (linSq actAt wAt bAt)

/-- The reference's result, index by index, is the projection of the node's row of activations on the weight column,
    plus the bias, squared. The column index of a result entry is `0`, so the weight is read at `(k, 0)`. -/
theorem result_eq (x0 : (⟨S50000x128, .f32⟩ : BufTy).Contents (Elt Ideal)) (x1 : (⟨S2x800000, .i32⟩ : BufTy).Contents (Elt Ideal))
    (x2 : (⟨S128x1, .f32⟩ : BufTy).Contents (Elt Ideal)) (x3 : (⟨S1, .f32⟩ : BufTy).Contents (Elt Ideal)) :
    val_main_v71 (F := Ideal) x0 x1 x2 x3 = linSq (val_main_v66 (F := Ideal) x0 x1) x2 x3 := by
  funext i
  rw [val_main_v71_apply, val_main_v70_apply, val_main_v67_apply, val_main_v69_apply, val_main_v68_apply, Cert.LinearSquare.linSq_apply]
  have h1 : (i 1).val < 1 := (i 1).isLt
  have hl : ∀ k : Fin 128, lidx_main_v67 i k = actAt i k := fun k => funext fun a => Fin.ext (by
    match a with
    | ⟨0, _⟩ => rfl
    | ⟨1, _⟩ => rfl)
  have hr : ∀ k : Fin 128, ridx_main_v67 i k = wAt k := fun k => funext fun a => Fin.ext (by
    match a with
    | ⟨0, _⟩ => rfl
    | ⟨1, _⟩ => show (i 1).val = 0; omega)
  have hb : idx_main_v68 (idx_main_v69 i) = bAt := funext fun a => Fin.ext (by
    match a with
    | ⟨0, _⟩ => rfl)
  simp only [hl, hr, hb, Ideal.mulf_def, Ideal.addf_def]

end Cert.ReferenceIdeal.Square

end
-- ==== Proof.lean ====
/-
  Simple graph convolution, three hops, then a linear projection and a square:
  `out[n] = ((S³ x)[n, ·] · w + b)²`, with `S = D^(-1/2) (A + I) D^(-1/2)` the adjacency with self-loops,
  normalised symmetrically by the degrees.

  Both programs compute the propagated activations `h = S³ x` on the host, by the same operations in the same order:
  they are one function of the node features and the edge list, and that function is never opened. The programs differ
  in the last step only. The kernel walks the 50000 nodes in 25 blocks of 2000 rows; in each block it multiplies every
  row by the weight laid out as a row, sums the 128 lanes, adds the bias and squares. The reference contracts the
  activations with the weight column in one product, adds the broadcast bias and squares. Over the extended reals both
  are `(∑ k < 128, h[n, k] · w[k, 0] + b[0])²` at every node `n`: the lane sum starts from the additive neutral, so it is
  the plain sum of the 128 products, and the contraction is the sum of the same products; the weight row's entry `(0, k)`
  is the column's `(k, 0)`. No algebraic law is needed beyond reading both sides at an index, and the inputs' finiteness
  is not used.

  The kernel's idealized program is the kernel's own text, line for line, read over the extended reals: the
  idealization rewrote no operation, and the claim that relates the two asks nothing. Each program's run leaves its
  arguments as they were.
-/
import proofs.«427275_j25598005084527_4_alg».proof.Defs
import proofs.«427275_j25598005084527_4_alg».proof.Proof.Gen.Kernel
import proofs.«427275_j25598005084527_4_alg».proof.Proof.Gen.Kernel.Frame
import proofs.«427275_j25598005084527_4_alg».proof.Proof.Gen.KernelIdeal
import proofs.«427275_j25598005084527_4_alg».proof.Proof.Gen.KernelIdeal.Frame
import proofs.«427275_j25598005084527_4_alg».proof.Proof.Gen.ReferenceIdeal
import proofs.«427275_j25598005084527_4_alg».proof.Proof.Gen.Pre_finite_inputs
import proofs.«427275_j25598005084527_4_alg».proof.Proof.KernelResult
import proofs.«427275_j25598005084527_4_alg».proof.Proof.ReferenceValue
import Idealize.ShloMosaic.Adequacy
import Idealize.ShloMosaic.Init

noncomputable section

namespace Cert.Proof

open Idealize.ShloMosaic Idealize.ShloMosaic.TcCoe Idealize.SL.Sem

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the same result: at every node the row of
    propagated activations projected on the weight, plus the bias, squared. The kernel's run gives it over the kernel
    program's arguments; the reference's run gives it over the reference's, which are the same arrays. -/
theorem algebraic : Cert.algebraic_KernelIdeal_ReferenceIdeal := by
  intro m ρ m' ρ' _ hagree
  refine ⟨_, Cert.KernelIdeal.Rows.run_linSq m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v71_eq, Cert.ReferenceIdeal.Square.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
